-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S50000x64 : Shape := ⟨2, ![50000, 64]⟩
abbrev S5000x64 : Shape := ⟨2, ![5000, 64]⟩
abbrev S650000x64 : Shape := ⟨2, ![650000, 64]⟩
abbrev S1x64 : Shape := ⟨2, ![1, 64]⟩

abbrev nBuf : Space → Nat
  | .hbm => 83
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S50000, .i32⟩
  | .hbm, ⟨11, _⟩ => ⟨S650000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S650000x1, .f32⟩
  | .hbm, ⟨47, _⟩ => ⟨S50000x128, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S650000x1, .i32⟩
  | .hbm, ⟨56, _⟩ => ⟨S650000x128, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S650000, .i32⟩
  | .hbm, ⟨68, _⟩ => ⟨S650000, .i1⟩
  | .hbm, ⟨69, _⟩ => ⟨S_, .i32⟩
  | .hbm, ⟨70, _⟩ => ⟨S650000, .i32⟩
  | .hbm, ⟨71, _⟩ => ⟨S650000, .i32⟩
  | .hbm, ⟨72, _⟩ => ⟨S650000, .i32⟩
  | .hbm, ⟨73, _⟩ => ⟨S650000x1, .i32⟩
  | .hbm, ⟨74, _⟩ => ⟨S650000x64, .f32⟩
  | .hbm, ⟨75, _⟩ => ⟨S650000x64, .f32⟩
  | .hbm, ⟨76, _⟩ => ⟨S650000x64, .f32⟩
  | .hbm, ⟨77, _⟩ => ⟨S_, .f32⟩
  | .hbm, ⟨78, _⟩ => ⟨S50000x64, .f32⟩
  | .hbm, ⟨79, _⟩ => ⟨S650000x1, .i32⟩
  | .hbm, ⟨80, _⟩ => ⟨S50000x64, .f32⟩
  | .hbm, ⟨81, _⟩ => ⟨S1x64, .f32⟩
  | .hbm, ⟨82, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S50000x128, .f32⟩
  | .hbm, ⟨11, _⟩ => ⟨S50000, .i32⟩
  | .hbm, ⟨12, _⟩ => ⟨S650000, .i32⟩
  | .hbm, ⟨13, _⟩ => ⟨S650000, .i32⟩
  | .hbm, ⟨14, _⟩ => ⟨S_, .f32⟩
  | .hbm, ⟨15, _⟩ => ⟨S650000, .f32⟩
  | .hbm, ⟨16, _⟩ => ⟨S_, .f32⟩
  | .hbm, ⟨17, _⟩ => ⟨S50000, .f32⟩
  | .hbm, ⟨18, _⟩ => ⟨S650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S50000, .i32⟩
  | .hbm, ⟨71, _⟩ => ⟨S650000, .i32⟩
  | .hbm, ⟨72, _⟩ => ⟨S650000, .i32⟩
  | .hbm, ⟨73, _⟩ => ⟨S_, .f32⟩
  | .hbm, ⟨74, _⟩ => ⟨S650000, .f32⟩
  | .hbm, ⟨75, _⟩ => ⟨S_, .f32⟩
  | .hbm, ⟨76, _⟩ => ⟨S50000, .f32⟩
  | .hbm, ⟨77, _⟩ => ⟨S650000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S650000, .i32⟩
  | .hbm, ⟨89, _⟩ => ⟨S650000, .i1⟩
  | .hbm, ⟨90, _⟩ => ⟨S_, .i32⟩
  | .hbm, ⟨91, _⟩ => ⟨S650000, .i32⟩
  | .hbm, ⟨92, _⟩ => ⟨S650000, .i32⟩
  | .hbm, ⟨93, _⟩ => ⟨S650000, .i32⟩
  | .hbm, ⟨94, _⟩ => ⟨S650000x1, .i32⟩
  | .hbm, ⟨95, _⟩ => ⟨S650000, .f32⟩
  | .hbm, ⟨96, _⟩ => ⟨S_, .i32⟩
  | .hbm, ⟨97, _⟩ => ⟨S650000, .i32⟩
  | .hbm, ⟨98, _⟩ => ⟨S650000, .i1⟩
  | .hbm, ⟨99, _⟩ => ⟨S_, .i32⟩
  | .hbm, ⟨100, _⟩ => ⟨S650000, .i32⟩
  | .hbm, ⟨101, _⟩ => ⟨S650000, .i32⟩
  | .hbm, ⟨102, _⟩ => ⟨S650000, .i32⟩
  | .hbm, ⟨103, _⟩ => ⟨S650000x1, .i32⟩
  | .hbm, ⟨104, _⟩ => ⟨S650000, .f32⟩
  | .hbm, ⟨105, _⟩ => ⟨S650000, .f32⟩
  | .hbm, ⟨106, _⟩ => ⟨S_, .i32⟩
  | .hbm, ⟨107, _⟩ => ⟨S650000, .i32⟩
  | .hbm, ⟨108, _⟩ => ⟨S650000, .i1⟩
  | .hbm, ⟨109, _⟩ => ⟨S_, .i32⟩
  | .hbm, ⟨110, _⟩ => ⟨S650000, .i32⟩
  | .hbm, ⟨111, _⟩ => ⟨S650000, .i32⟩
  | .hbm, ⟨112, _⟩ => ⟨S650000, .i32⟩
  | .hbm, ⟨113, _⟩ => ⟨S650000x1, .i32⟩
  | .hbm, ⟨114, _⟩ => ⟨S650000x64, .f32⟩
  | .hbm, ⟨115, _⟩ => ⟨S650000x1, .f32⟩
  | .hbm, ⟨116, _⟩ => ⟨S650000x64, .f32⟩
  | .hbm, ⟨117, _⟩ => ⟨S650000x64, .f32⟩
  | .hbm, ⟨118, _⟩ => ⟨S_, .f32⟩
  | .hbm, ⟨119, _⟩ => ⟨S50000x64, .f32⟩
  | .hbm, ⟨120, _⟩ => ⟨S650000x1, .i32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

class Facts : Prop extends Facts₀ where

variable [Facts]
-- ==== Proof.Spec.lean ====
/-
  The three whole-array functions the four kernel calls compute, on the extended reals.

  A linear layer is every row of the input times the weight matrix: entry (p, q) is the sum over κ of
  x (p, κ) * w (κ, q).  A bias layer adds the bias vector to every row; the first layer also clamps at zero
  from below.  The bias reaches the kernels as a one-row matrix, so the functions are stated over a 1×N row.
-/
import Idealize.ShloMosaic.PureOps.Ideal.Laws
import Idealize.ShloMosaic.Lib.ValueIdx

noncomputable section

open scoped BigOperators

namespace Cert.Gcn
open Idealize.ShloMosaic Idealize.ShloMosaic.ValueIdx

/-- Every row of `x` times the weight matrix `w`. -/
def linear {M K N : Nat} (x : FVec Ideal ⟨2, ![M, K]⟩ .f32) (w : FVec Ideal ⟨2, ![K, N]⟩ .f32) :
    FVec Ideal ⟨2, ![M, N]⟩ .f32 :=
  fun i => ∑ κ : Fin K, x (ix2 (i 0) κ) * w (ix2 κ (i 1))

/-- The one-row matrix `b` added to every row of `a`. -/
def addRow {M N : Nat} (a : FVec Ideal ⟨2, ![M, N]⟩ .f32) (b : FVec Ideal ⟨2, ![1, N]⟩ .f32) :
    FVec Ideal ⟨2, ![M, N]⟩ .f32 :=
  fun i => a i + b (ix2 (0 : Fin 1) (i 1))

/-- The one-row matrix `b` added to every row of `a`, then the larger of that and zero. -/
def reluAddRow {M N : Nat} (a : FVec Ideal ⟨2, ![M, N]⟩ .f32) (b : FVec Ideal ⟨2, ![1, N]⟩ .f32) :
    FVec Ideal ⟨2, ![M, N]⟩ .f32 :=
  fun i => max (a i + b (ix2 (0 : Fin 1) (i 1))) 0

theorem linear_apply {M K N : Nat} (x : FVec Ideal ⟨2, ![M, K]⟩ .f32) (w : FVec Ideal ⟨2, ![K, N]⟩ .f32)
    (p : Fin M) (q : Fin N) : linear x w (ix2 p q) = ∑ κ : Fin K, x (ix2 p κ) * w (ix2 κ q) := rfl

theorem addRow_apply {M N : Nat} (a : FVec Ideal ⟨2, ![M, N]⟩ .f32) (b : FVec Ideal ⟨2, ![1, N]⟩ .f32)
    (p : Fin M) (q : Fin N) : addRow a b (ix2 p q) = a (ix2 p q) + b (ix2 (0 : Fin 1) q) := rfl

theorem reluAddRow_apply {M N : Nat} (a : FVec Ideal ⟨2, ![M, N]⟩ .f32) (b : FVec Ideal ⟨2, ![1, N]⟩ .f32)
    (p : Fin M) (q : Fin N) : reluAddRow a b (ix2 p q) = max (a (ix2 p q) + b (ix2 (0 : Fin 1) q)) 0 := rfl

end Cert.Gcn

end
-- ==== Proof.RefStages.lean ====
/-
  The reference program read stage by stage, at the extended reals.

  Its first matrix product is every row of x times W1; the first layer's output h is the aggregate plus the
  bias, clamped at zero from below; its second matrix product is every row of h times W2; its result is the
  second aggregate plus the second bias.  The degree normalisation the reference computes a second time,
  for the second layer, is the one it computed for the first: the same operations of the same edge list.
-/
import proofs.«139789_j23192823399146_1_alg».proof.Proof.RefRead
import proofs.«139789_j23192823399146_1_alg».proof.Proof.Spec

noncomputable section

namespace Cert.ReferenceIdeal.Stages

open Cert.ReferenceIdeal Cert.ReferenceIdeal.Gen Cert.ReferenceIdeal.ReadP
open Idealize.ShloMosaic Idealize.ShloMosaic.TcCoe Idealize.ShloMosaic.ValueIdx
open scoped BigOperators

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first matrix product: entry (p, q) is the sum over κ of x (p, κ) * W1 (κ, q). -/
theorem xw1_eq : val_main_v4 (F := Ideal) x0 x2 = Cert.Gcn.linear x0 x2 := by
  funext i
  rw [val_main_v4_apply]
  unfold Cert.Gcn.linear
  refine Finset.sum_congr rfl fun k _ => ?_
  have e1 : lidx_main_v4 i k = ix2 (i 0) k := funext fun a => by
    match a with
    | ⟨0, _⟩ => rfl
    | ⟨1, _⟩ => rfl
  have e2 : ridx_main_v4 i k = ix2 k (i 1) := funext fun a => by
    match a with
    | ⟨0, _⟩ => rfl
    | ⟨1, _⟩ => rfl
  rw [e1, e2]
  rfl

/-- The first layer's output: the aggregate plus the bias (given as a one-row matrix `b` with the bias
    vector's entries), then the larger of that and zero. -/
theorem h_eq (b : FVec Ideal ⟨2, ![1, 128]⟩ .f32) (hb : ∀ q : Fin 128, b (ix2 (0 : Fin 1) q) = x3 (ix1 q)) :
    val_main_v47 (F := Ideal) x0 x1 x2 x3 = Cert.Gcn.reluAddRow (val_main_v43 (F := Ideal) x0 x1 x2) b := by
  funext i
  obtain ⟨p, q, rfl⟩ : ∃ (p : Fin 50000) (q : Fin 128), i = ix2 p q := ⟨i 0, i 1, eq_ix2 i⟩
  rw [val_main_v47_apply, val_main_v46_apply, val_main_v45_apply, val_main_v44_apply, val_main_call1_v0_apply,
    val_main_call1_cst_apply, Cert.Gcn.reluAddRow_apply]
  have e : idx_main_v44 (idx_main_v45 (ix2 p q)) = ix1 q := funext fun a => by
    match a with
    | ⟨0, _⟩ => rfl
  rw [e, hb]
  simp only [Ideal.maximumf_def, Ideal.addf_def, Ideal.ofBits_def, Ideal.ofBits_zero_f32]

/-- The second matrix product: every row of h times W2. -/
theorem xw2_eq : val_main_v48 (F := Ideal) x0 x1 x2 x3 x4 = Cert.Gcn.linear (val_main_v47 (F := Ideal) x0 x1 x2 x3) x4 := by
  funext i
  rw [val_main_v48_apply]
  unfold Cert.Gcn.linear
  refine Finset.sum_congr rfl fun k _ => ?_
  have e1 : lidx_main_v48 i k = ix2 (i 0) k := funext fun a => by
    match a with
    | ⟨0, _⟩ => rfl
    | ⟨1, _⟩ => rfl
  have e2 : ridx_main_v48 i k = ix2 k (i 1) := funext fun a => by
    match a with
    | ⟨0, _⟩ => rfl
    | ⟨1, _⟩ => rfl
  rw [e1, e2]
  rfl

/-- The result: the second aggregate plus the second bias (given as a one-row matrix). -/
theorem out_eq (b : FVec Ideal ⟨2, ![1, 64]⟩ .f32) (hb : ∀ q : Fin 64, b (ix2 (0 : Fin 1) q) = x5 (ix1 q)) :
    val_main_v90 (F := Ideal) x0 x1 x2 x3 x4 x5 = Cert.Gcn.addRow (val_main_v87 (F := Ideal) x0 x1 x2 x3 x4) b := by
  funext i
  obtain ⟨p, q, rfl⟩ : ∃ (p : Fin 50000) (q : Fin 64), i = ix2 p q := ⟨i 0, i 1, eq_ix2 i⟩
  rw [val_main_v90_apply, val_main_v89_apply, val_main_v88_apply, Cert.Gcn.addRow_apply]
  have e : idx_main_v88 (idx_main_v89 (ix2 p q)) = ix1 q := funext fun a => by
    match a with
    | ⟨0, _⟩ => rfl
  rw [e, hb]
  simp only [Ideal.addf_def]

/-- The second layer's source indices are the first layer's: the same edge list joined with the same self loops. -/
theorem src2_eq : val_main_v50 (F := Ideal) x1 = val_main_v6 (F := Ideal) x1 := rfl

/-- The second layer's target indices are the first layer's. -/
theorem dst2_eq : val_main_v51 (F := Ideal) x1 = val_main_v7 (F := Ideal) x1 := rfl

/-- The second layer's edge weights, as a column, are the first layer's: the same degree count, the same
    inverse square roots, gathered at the same two index vectors. -/
theorem norm2_eq : val_main_v82 (F := Ideal) x1 = val_main_v38 (F := Ideal) x1 := rfl

/-! ## The aggregation, as a function of the matrix it aggregates

Both layers aggregate the same way: gather the rows of the transformed features at every edge's source, scale
each by the edge's weight, and add them into the row of the edge's target.  Nothing here looks inside a float
operation, so it is stated for any float family. -/

section Aggregate

variable {F : FTy → Type} [FloatOps F]
variable (y0 : (⟨S50000x128, .f32⟩ : BufTy).Contents (Elt F)) (y1 : (⟨S2x600000, .i32⟩ : BufTy).Contents (Elt F))
  (y2 : (⟨S128x128, .f32⟩ : BufTy).Contents (Elt F)) (y3 : (⟨S128, .f32⟩ : BufTy).Contents (Elt F))
  (y4 : (⟨S128x64, .f32⟩ : BufTy).Contents (Elt F))

/-- The weighted sum, into each node's row, of the rows of `xw` at the sources of the edges that end there
    (128 features). -/
def agg128 (xw : (⟨S50000x128, .f32⟩ : BufTy).Contents (Elt F)) : (⟨S50000x128, .f32⟩ : BufTy).Contents (Elt F) :=
  Host.scatterAdd scatter_S50000x128_S650000x1_S650000x128_1_0_0_1 (val_main_v41 (F := F)) (val_main_v42 (F := F) y1)
    (mulf (Host.gather gather_S50000x128_S650000x1_S650000x128_1_0_n_n_0_1_1128 xw (val_main_v36 (F := F) y1))
      (val_main_v39 (F := F) y1))

/-- The same with 64 features, stated over the FIRST layer's index vectors and weights. -/
def agg64 (xw : (⟨S50000x64, .f32⟩ : BufTy).Contents (Elt F)) : (⟨S50000x64, .f32⟩ : BufTy).Contents (Elt F) :=
  Host.scatterAdd scatter_S50000x64_S650000x1_S650000x64_1_0_0_1 (val_main_v85 (F := F)) (val_main_v42 (F := F) y1)
    (mulf (Host.gather gather_S50000x64_S650000x1_S650000x64_1_0_n_n_0_1_164 xw (val_main_v36 (F := F) y1))
      (broadcastInDim S650000x64 ![0, 1] bcast_S650000x1_S650000x64_0_1 (val_main_v38 (F := F) y1)))

/-- The reference's first aggregate is the aggregation of its first matrix product. -/
theorem agg1_eq : val_main_v43 (F := F) y0 y1 y2 = agg128 y1 (val_main_v4 (F := F) y0 y2) := rfl

/-- The reference's second aggregate is the aggregation of its second matrix product: the index vectors and
    weights it recomputes for the second layer are the first layer's. -/
theorem agg2_eq : val_main_v87 (F := F) y0 y1 y2 y3 y4 = agg64 y1 (val_main_v48 (F := F) y0 y1 y2 y3 y4) := rfl

end Aggregate

end Cert.ReferenceIdeal.Stages

end
-- ==== Proof.KernelHost.lean ====
/-
  The kernel program's host stretches, read for any float family: what the buffers hold before the first call
  (the edge list's two index vectors and the edge weights), and what each of the two aggregation stretches
  makes of the matrix the call before it left.  Every host operation here is one the reference also applies,
  to the same operands, so each buffer is named by the reference's stage.
-/
import proofs.«139789_j23192823399146_1_alg».proof.Proof.Gen.KernelIdeal.Frame
import proofs.«139789_j23192823399146_1_alg».proof.Proof.RefStages
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The six argument arrays on core `c`, as launched. -/
abbrev a0 (c : Dev nD) : (⟨S50000x128, .f32⟩ : BufTy).Contents (Elt F) := m ((c : Thread nD τ).loc main_arg0)
abbrev a1 (c : Dev nD) : (⟨S2x600000, .i32⟩ : BufTy).Contents (Elt F) := m ((c : Thread nD τ).loc main_arg1)
abbrev a2 (c : Dev nD) : (⟨S128x128, .f32⟩ : BufTy).Contents (Elt F) := m ((c : Thread nD τ).loc main_arg2)
abbrev a3 (c : Dev nD) : (⟨S128, .f32⟩ : BufTy).Contents (Elt F) := m ((c : Thread nD τ).loc main_arg3)
abbrev a4 (c : Dev nD) : (⟨S128x64, .f32⟩ : BufTy).Contents (Elt F) := m ((c : Thread nD τ).loc main_arg4)
abbrev a5 (c : Dev nD) : (⟨S64, .f32⟩ : BufTy).Contents (Elt F) := m ((c : Thread nD τ).loc main_arg5)

/-- No operation of a literal stretch writes the buffer. -/
macro "not_written" : tactic => `(tactic| (
  refine List.forall_iff_forall_mem.mp ?_
  simp only [hostOps0, hostOps0_1, hostOps0_2, hostOps1, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## Before the first call -/

/-- The source index of every edge and self loop. -/
theorem W3_src (c : Dev nD) :
    W3 m ρ c (Proc.devRef .tc main_v5) = Cert.ReferenceIdeal.ReadP.val_main_v6 (F := F) (a1 m c) := by
  show StableHlo.after hostOps0_2 (StableHlo.after hostOps0_1 (StableHlo.after hostOps0 (W0 m ρ c))) (Proc.devRef .tc main_v5) = _
  dsimp only [hostOps0, hostOps0_1, hostOps0_2]
  after_results
  rfl

/-- The target index of every edge and self loop. -/
theorem W3_dst (c : Dev nD) :
    W3 m ρ c (Proc.devRef .tc main_v6) = Cert.ReferenceIdeal.ReadP.val_main_v7 (F := F) (a1 m c) := by
  show StableHlo.after hostOps0_2 (StableHlo.after hostOps0_1 (StableHlo.after hostOps0 (W0 m ρ c))) (Proc.devRef .tc main_v6) = _
  dsimp only [hostOps0, hostOps0_1, hostOps0_2]
  after_results
  rfl

set_option maxHeartbeats 4000000 in
/-- The weight of every edge and self loop, as a column: the product of the inverse square roots of the degrees
    at its two ends (zero where the degree is zero). -/
theorem W3_norm (c : Dev nD) :
    W3 m ρ c (Proc.devRef .tc main_v30) = Cert.ReferenceIdeal.ReadP.val_main_v38 (F := F) (a1 m c) := by
  show StableHlo.after hostOps0_2 (StableHlo.after hostOps0_1 (StableHlo.after hostOps0 (W0 m ρ c))) (Proc.devRef .tc main_v30) = _
  dsimp only [hostOps0, hostOps0_1, hostOps0_2]
  after_results_simp
  rfl

/-- A buffer the first stretch does not write is as launched. -/
theorem W3_keep (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes) :
    W3 m ρ c (Proc.devRef .tc b) = m ((c : Thread nD τ).loc b) :=
  (StableHlo.after_of_forall_not_mem _ _ h2).trans ((StableHlo.after_of_forall_not_mem _ _ h1).trans
    (StableHlo.after_of_forall_not_mem _ _ h0))

theorem W3_arg0 (c : Dev nD) : W3 m ρ c (Proc.devRef .tc main_arg0) = a0 m c :=
  W3_keep m ρ c main_arg0 (by not_written) (by not_written) (by not_written)
theorem W3_arg2 (c : Dev nD) : W3 m ρ c (Proc.devRef .tc main_arg2) = a2 m c :=
  W3_keep m ρ c main_arg2 (by not_written) (by not_written) (by not_written)
theorem W3_arg3 (c : Dev nD) : W3 m ρ c (Proc.devRef .tc main_arg3) = a3 m c :=
  W3_keep m ρ c main_arg3 (by not_written) (by not_written) (by not_written)
theorem W3_arg4 (c : Dev nD) : W3 m ρ c (Proc.devRef .tc main_arg4) = a4 m c :=
  W3_keep m ρ c main_arg4 (by not_written) (by not_written) (by not_written)
theorem W3_arg5 (c : Dev nD) : W3 m ρ c (Proc.devRef .tc main_arg5) = a5 m c :=
  W3_keep m ρ c main_arg5 (by not_written) (by not_written) (by not_written)

/-! ## The first call leaves every buffer but its result as it found it; the stretch after it -/

/-- What the later boundaries still hold of the first stretch's results and of the arguments. -/
structure Kept (W : Dev nD → Valuation τ sig (Elt F)) (c : Dev nD) : Prop where
  src : W c (Proc.devRef .tc main_v5) = Cert.ReferenceIdeal.ReadP.val_main_v6 (F := F) (a1 m c)
  dst : W c (Proc.devRef .tc main_v6) = Cert.ReferenceIdeal.ReadP.val_main_v7 (F := F) (a1 m c)
  norm : W c (Proc.devRef .tc main_v30) = Cert.ReferenceIdeal.ReadP.val_main_v38 (F := F) (a1 m c)
  arg3 : W c (Proc.devRef .tc main_arg3) = a3 m c
  arg4 : W c (Proc.devRef .tc main_arg4) = a4 m c
  arg5 : W c (Proc.devRef .tc main_arg5) = a5 m c

theorem kept3 (c : Dev nD) : Kept m (W3 m ρ) c :=
  ⟨W3_src m ρ c, W3_dst m ρ c, W3_norm m ρ c, W3_arg3 m ρ c, W3_arg4 m ρ c, W3_arg5 m ρ c⟩

theorem kept4 (c : Dev nD) : Kept m (W4 m ρ) c :=
  ⟨(W4_of_ne m ρ c main_v5 (by decide)).trans (kept3 m ρ c).src,
   (W4_of_ne m ρ c main_v6 (by decide)).trans (kept3 m ρ c).dst,
   (W4_of_ne m ρ c main_v30 (by decide)).trans (kept3 m ρ c).norm,
   (W4_of_ne m ρ c main_arg3 (by decide)).trans (kept3 m ρ c).arg3,
   (W4_of_ne m ρ c main_arg4 (by decide)).trans (kept3 m ρ c).arg4,
   (W4_of_ne m ρ c main_arg5 (by decide)).trans (kept3 m ρ c).arg5⟩

theorem kept5 (c : Dev nD) : Kept m (W5 m ρ) c :=
  ⟨(StableHlo.after_of_forall_not_mem (b := Proc.devRef .tc main_v5) hostOps1 _ (by not_written)).trans (kept4 m ρ c).src,
   (StableHlo.after_of_forall_not_mem (b := Proc.devRef .tc main_v6) hostOps1 _ (by not_written)).trans (kept4 m ρ c).dst,
   (StableHlo.after_of_forall_not_mem (b := Proc.devRef .tc main_v30) hostOps1 _ (by not_written)).trans (kept4 m ρ c).norm,
   (StableHlo.after_of_forall_not_mem (b := Proc.devRef .tc main_arg3) hostOps1 _ (by not_written)).trans (kept4 m ρ c).arg3,
   (StableHlo.after_of_forall_not_mem (b := Proc.devRef .tc main_arg4) hostOps1 _ (by not_written)).trans (kept4 m ρ c).arg4,
   (StableHlo.after_of_forall_not_mem (b := Proc.devRef .tc main_arg5) hostOps1 _ (by not_written)).trans (kept4 m ρ c).arg5⟩

theorem kept6 (c : Dev nD) : Kept m (W6 m ρ) c :=
  ⟨(W6_of_ne m ρ c main_v5 (by decide)).trans (kept5 m ρ c).src,
   (W6_of_ne m ρ c main_v6 (by decide)).trans (kept5 m ρ c).dst,
   (W6_of_ne m ρ c main_v30 (by decide)).trans (kept5 m ρ c).norm,
   (W6_of_ne m ρ c main_arg3 (by decide)).trans (kept5 m ρ c).arg3,
   (W6_of_ne m ρ c main_arg4 (by decide)).trans (kept5 m ρ c).arg4,
   (W6_of_ne m ρ c main_arg5 (by decide)).trans (kept5 m ρ c).arg5⟩

theorem kept7 (c : Dev nD) : Kept m (W7 m ρ) c :=
  ⟨(W7_of_ne m ρ c main_v5 (by decide)).trans (kept6 m ρ c).src,
   (W7_of_ne m ρ c main_v6 (by decide)).trans (kept6 m ρ c).dst,
   (W7_of_ne m ρ c main_v30 (by decide)).trans (kept6 m ρ c).norm,
   (W7_of_ne m ρ c main_arg3 (by decide)).trans (kept6 m ρ c).arg3,
   ((W7_arr m ρ c 1).trans (((dat2 (V6 m ρ) c).arrAt_in 1 rfl _).trans (A_eq2 (V6 m ρ) c 1))).trans (kept6 m ρ c).arg4,
   (W7_of_ne m ρ c main_arg5 (by decide)).trans (kept6 m ρ c).arg5⟩

set_option maxHeartbeats 2000000 in
/-- The stretch after the first call aggregates the matrix that call left. -/
theorem W5_agg (c : Dev nD) :
    W5 m ρ c (Proc.devRef .tc main_v43) = Cert.ReferenceIdeal.Stages.agg128 (a1 m c) (W4 m ρ c (Proc.devRef .tc main_v31)) := by
  show StableHlo.after hostOps1 (W4 m ρ c) (Proc.devRef .tc main_v43) = _
  dsimp only [hostOps1]
  after_results
  rw [(kept4 m ρ c).src, (kept4 m ρ c).dst, (kept4 m ρ c).norm]
  rfl

/-- … and lays the first bias vector out as a one-row matrix. -/
theorem W5_bias (c : Dev nD) :
    W5 m ρ c (Proc.devRef .tc main_v44) = shapeCast S1x128 (a3 m c) shapeCasts_S128_S1x128 := by
  show StableHlo.after hostOps1 (W4 m ρ c) (Proc.devRef .tc main_v44) = _
  dsimp only [hostOps1]
  after_results
  rw [(kept4 m ρ c).arg3]
  rfl

set_option maxHeartbeats 2000000 in
/-- The stretch after the third call aggregates the matrix that call left, with the same index vectors and
    weights. -/
theorem W8_agg (c : Dev nD) :
    W8 m ρ c (Proc.devRef .tc main_v58) = Cert.ReferenceIdeal.Stages.agg64 (a1 m c) (W7 m ρ c (Proc.devRef .tc main_v46)) := by
  show StableHlo.after hostOps3 (W7 m ρ c) (Proc.devRef .tc main_v58) = _
  dsimp only [hostOps3]
  after_results
  rw [(kept7 m ρ c).src, (kept7 m ρ c).dst, (kept7 m ρ c).norm]
  rfl

/-- … and lays the second bias vector out as a one-row matrix. -/
theorem W8_bias (c : Dev nD) :
    W8 m ρ c (Proc.devRef .tc main_v59) = shapeCast S1x64 (a5 m c) shapeCasts_S64_S1x64 := by
  show StableHlo.after hostOps3 (W7 m ρ c) (Proc.devRef .tc main_v59) = _
  dsimp only [hostOps3]
  after_results
  rw [(kept7 m ρ c).arg5]
  rfl

end Cert.KernelIdeal.Chain

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Region0.lean ====
/-
  Call 0 of the kernel program multiplies the 50000×128 input x by the 128×128 weight matrix w, 5000 rows at each of
  its ten grid points.  When it returns, its output array holds the product: entry (r, q) is the sum over κ of
  x (r, κ) * w (κ, q).
-/
import proofs.«139789_j23192823399146_1_alg».proof.Proof.Gen.KernelIdeal.Frame
import proofs.«139789_j23192823399146_1_alg».proof.Proof.Spec
import proofs.«139789_j23192823399146_1_alg».proof.Proof.LibPlainDot
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The zero offset of a two-axis rectangle is the constant-zero function. -/
theorem hz0 : (![0, 0] : Fin 2 → Nat) = fun _ => 0 := funext fun a => by fin_cases a <;> rfl

/-- The product of call 0 contracts the columns of its left operand with the rows of its right operand and has no
    batch axes. -/
theorem plainDims0 : PlainDot.IsPlain dot_S5000x128_S128x128_S5000x128_1_0_0_1_n_n := ⟨rfl, rfl, rfl, rfl, rfl, rfl⟩

/-- Entry (p, q) of what one grid point stores: row p of the loaded block of x times column q of the loaded weight
    matrix.  Rounding the operands to the narrower format changes nothing on the extended reals, and the accumulator
    the product is added into is zero. -/
theorem rows0_payload (x0 : Vec Ideal S5000x128 .f32) (x1 : Vec Ideal S128x128 .f32) (p : Fin 5000) (q : Fin 128) :
    k0_pay1 (F := Ideal) x0 x1 (ix2 p q) = ∑ κ : Fin 128, x0 (ix2 p κ) * x1 (ix2 κ q) := by
  unfold k0_pay1
  exact PlainDot.matmul_zero_plain dot_S5000x128_S128x128_S5000x128_1_0_0_1_n_n plainDims0 none _ _ p q

/-- The block indices over the ten grid points: the block of x and the block of the result are both block t of
    their arrays' rows and all of their columns; the weight matrix is one block. -/
theorem blockIndex0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The block of x at grid point t is rows 5000 t … 5000 t + 4999 of x, all columns. -/
theorem rowsOfX0 (c : Dev nD) (t : Fin cfg0.N) (p : Fin 5000) (κ : Fin 128) (r : Fin 50000)
    (hr : r.val = t.val * 5000 + p.val) :
    (iblk0 V c 0 t : Vec Ideal S5000x128 .f32) (ix2 p κ) = (V c main_arg0 : S50000x128.Idx → Elt Ideal .f32) (ix2 r κ) := by
  obtain ⟨e0, e1, e2, e3, e4, e5⟩ := blockIndex0 t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * κ.val = κ.val; omega

/-- The block of the weight matrix at every grid point is the whole matrix. -/
theorem wholeWeights0 (c : Dev nD) (t : Fin cfg0.N) (κ : Fin 128) (q : Fin 128) :
    (iblk0 V c 1 t : Vec Ideal S128x128 .f32) (ix2 κ q) = (V c main_arg2 : S128x128.Idx → Elt Ideal .f32) (ix2 κ q) := by
  obtain ⟨e0, e1, e2, e3, e4, e5⟩ := blockIndex0 t
  unfold iblk0
  rw [View.read_apply]
  show V c main_arg2 _ = V c main_arg2 _
  congr 1
  funext a
  apply Fin.ext
  match a with
  | ⟨0, _⟩ => show win0_1.index t (0 : Fin 2) * 128 + 1 * κ.val = κ.val; omega
  | ⟨1, _⟩ => show win0_1.index t (1 : Fin 2) * 128 + 1 * q.val = q.val; omega

/-- Entry (p, q) of the result's block at grid point t is entry (5000 t + p, q) of the result. -/
theorem resultBlock0 (t : Fin cfg0.N) (p : Fin 5000) (q : Fin 128) (r : Fin 50000) (hr : r.val = t.val * 5000 + p.val) :
    ((cfg0.win 2).blk t).view.emb (ix2 p q) = (ix2 r q : S50000x128.Idx) := by
  obtain ⟨e0, e1, e2, e3, e4, e5⟩ := blockIndex0 t
  funext a
  apply Fin.ext
  match a with
  | ⟨0, _⟩ => show win0_2.index t (0 : Fin 2) * 5000 + 1 * p.val = r.val; omega
  | ⟨1, _⟩ => show win0_2.index t (1 : Fin 2) * 128 + 1 * q.val = q.val; omega

/-- What grid point t writes back is block t of the product of the whole arrays: entry (p, q) of the stored block is
    row p of the block of x times column q of the weight matrix, which is row 5000 t + p of x times that column, and
    it lands on entry (5000 t + p, q) of the result. -/
theorem writtenBack0 (c : Dev nD) (t : Fin cfg0.N) :
    (dat0 (F := Ideal) V c).flushed 2 t
      = ((cfg0.win 2).blk t).view.read (Elt Ideal) (Cert.Gcn.linear (V c main_arg0) (V c main_arg2)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  funext j
  obtain ⟨p, q, rfl⟩ : ∃ (p : Fin 5000) (q : Fin 128), j = ix2 p q := ⟨j 0, j 1, eq_ix2 j⟩
  refine (rows0_payload (iblk0 V c 0 t) (iblk0 V c 1 t) p q).trans ?_
  have ht : t.val < 10 := t.isLt
  have hr : (⟨t.val * 5000 + p.val, by have := p.isLt; omega⟩ : Fin 50000).val = t.val * 5000 + p.val := rfl
  rw [View.read_apply, resultBlock0 t p q _ hr]
  refine Eq.trans ?_ (Cert.Gcn.linear_apply (V c main_arg0) (V c main_arg2) _ q).symm
  refine Finset.sum_congr rfl fun κ _ => ?_
  rw [rowsOfX0 V c t p κ _ hr, wholeWeights0 V c t κ q]

/-- An entry of the result lies in the block of grid point t exactly when, on each axis, its coordinate is within
    the block's extent from the block's first coordinate. -/
theorem inBlock0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- Every entry of the result is written back by some grid point: row r belongs to the block of point r / 5000, and
    50000 = 10 · 5000 rows make ten full blocks. -/
theorem covers0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hq : (i 0).val / 5000 < 10 := by omega
  obtain ⟨e0, e1, e2, e3, e4, e5⟩ := blockIndex0 ⟨(i 0).val / 5000, hq⟩
  have e4' : win0_2.index (⟨(i 0).val / 5000, hq⟩ : Fin cfg0.N) (0 : Fin 2) = (i 0).val / 5000 := e4
  refine ⟨⟨(i 0).val / 5000, hq⟩, flush0_2 _, ?_⟩
  rw [inBlock0]
  intro a
  match a with
  | ⟨0, _⟩ =>
    show win0_2.index (⟨(i 0).val / 5000, hq⟩ : Fin cfg0.N) (0 : Fin 2) * 5000 ≤ (i 0).val
      ∧ (i 0).val < win0_2.index (⟨(i 0).val / 5000, hq⟩ : Fin cfg0.N) (0 : Fin 2) * 5000 + 5000
    omega
  | ⟨1, _⟩ =>
    show win0_2.index (⟨(i 0).val / 5000, hq⟩ : Fin cfg0.N) (1 : Fin 2) * 128 ≤ (i 1).val
      ∧ (i 1).val < win0_2.index (⟨(i 0).val / 5000, hq⟩ : Fin cfg0.N) (1 : Fin 2) * 128 + 128
    omega

/-- When call 0 returns, its output array is x times the weight matrix: every grid point writes back its block of the
    product, and the ten blocks fill the array. -/
theorem final0 (c : Dev nD) : (dat0 (F := Ideal) V c).arrAt 2 cfg0.N = Cert.Gcn.linear (V c main_arg0) (V c main_arg2) :=
  (dat0 V c).arrAt_eq_of_cover 2 (Cert.Gcn.linear (V c main_arg0) (V c main_arg2)) (fun t _ => writtenBack0 V c t) covers0

end Cert.KernelIdeal.RegionValue

end
-- ==== Proof.Region1.lean ====
/-
  Call 1 of the kernel program adds the one-row bias to every row of its input and clamps at zero from below,
  a block of 5000 rows at each of its ten grid points.  When the call returns, the output array holds that
  function of the whole input: entry (r, q) is max (input (r, q) + bias (0, q), 0).
-/
import proofs.«139789_j23192823399146_1_alg».proof.Proof.Gen.KernelIdeal.Frame
import proofs.«139789_j23192823399146_1_alg».proof.Proof.Spec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The two offsets of a whole-block access are both zero. -/
theorem hz1 : (![0, 0] : Fin 2 → Nat) = fun _ => 0 := funext fun a => by fin_cases a <;> rfl

/-- One entry of what the body stores: the block entry plus the bias entry of its column, clamped at zero from below. -/
theorem biasRelu1_payload (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) 0 := by
  unfold k1_pay1
  simp only [shapeCast_self]
  rw [maximumf_apply, addf_apply, broadcast_apply]
  rw [broadcastTo_apply x1 broadcasts_S1x128_S5000x128 (ix2 p q) (ix2 (0 : Fin 1) q) (fun a => by
    match a with
    | ⟨0, _⟩ => rfl
    | ⟨1, _⟩ => rfl)]
  exact congrArg _ Ideal.ofBits_zero_f32

/-- The bias-and-clamp of a whole array at an index, from its two operands read at equal indices. -/
theorem reluAddRow1_at (A : S50000x128.Idx → Elt Ideal .f32) (B : S1x128.Idx → Elt Ideal .f32) (i0 i2 : S50000x128.Idx)
    (i1 : S1x128.Idx) (h0 : i0 = i2) (h1 : i1 = ix2 (0 : Fin 1) (i2 1)) :
    max (A i0 + B i1) 0 = Cert.Gcn.reluAddRow A B i2 := by
  subst h0 h1; rfl

/-- Where the three windows sit at grid point t: the row-block windows at block row t, block column 0; the bias
    window always at its only block. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is rows 5000 t … 5000 t + 4999 of the bias-and-clamp of the whole input. -/
theorem writtenBack1 (c : Dev nD) (t : Fin cfg1.N) :
    (dat1 (F := Ideal) V c).flushed 2 t
      = ((cfg1.win 2).blk t).view.read (Elt Ideal) (Cert.Gcn.reluAddRow (V c main_v43) (V c main_v44)) := by
  show (cfg1.win 2).cut (grid1.coords t) ((dat1 (F := Ideal) V c).after 2 t) = _
  rw [after1_2]
  unfold out1_2
  rw [View.canon_unit_zero hz1]
  simp only [View.ld_unit_zero (S := S5000x128) hz1, View.ld_unit_zero (S := S1x128) hz1]
  obtain ⟨e0, e1, e2, e3, e4, e5⟩ := blockIndex1 t
  funext j
  obtain ⟨p, q, rfl⟩ : ∃ (p : Fin 5000) (q : Fin 128), j = ix2 p q := ⟨j 0, j 1, eq_ix2 j⟩
  refine (biasRelu1_payload (iblk1 V c 0 t) (iblk1 V c 1 t) p q).trans ?_
  have hrow : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hbias : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  exact reluAddRow1_at (V c main_v43) (V c main_v44) (((cfg1.win 0).blk t).view.emb (ix2 p q))
    (((cfg1.win 2).blk t).view.emb (ix2 p q)) (((cfg1.win 1).blk t).view.emb (ix2 (0 : Fin 1) q)) hrow hbias

/-- An index of the output array lies in grid point t's block exactly when each coordinate lies in the block's range. -/
theorem inBlock1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Row r of the output lies in the block of grid point r / 5000, and every grid point writes its block back. -/
theorem covers1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have ht : (i 0).val / 5000 < cfg1.N := by show (i 0).val / 5000 < 10; omega
  obtain ⟨-, -, -, -, e4, e5⟩ := blockIndex1 ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [inBlock1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    omega

/-- When call 1 returns, its output array is the bias-and-clamp of the whole input. -/
theorem final1 (c : Dev nD) : (dat1 (F := Ideal) V c).arrAt 2 cfg1.N = Cert.Gcn.reluAddRow (V c main_v43) (V c main_v44) :=
  (dat1 (F := Ideal) V c).arrAt_eq_of_cover 2 (Cert.Gcn.reluAddRow (V c main_v43) (V c main_v44))
    (fun t _ => writtenBack1 V c t) covers1

end Cert.KernelIdeal.RegionValue

end
-- ==== Proof.Region2.lean ====
/-
  Call 2 of the kernel program multiplies the 50000×128 hidden layer h by the 128×64 weight matrix w, 5000 rows at
  each of its ten grid points.  When it returns, its output array holds the product: entry (r, q) is the sum over κ
  of h (r, κ) * w (κ, q).
-/
import proofs.«139789_j23192823399146_1_alg».proof.Proof.Gen.KernelIdeal.Frame
import proofs.«139789_j23192823399146_1_alg».proof.Proof.Spec
import proofs.«139789_j23192823399146_1_alg».proof.Proof.LibPlainDot
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The zero offset of a two-axis rectangle is the constant-zero function. -/
theorem hz2 : (![0, 0] : Fin 2 → Nat) = fun _ => 0 := funext fun a => by fin_cases a <;> rfl

/-- The product of call 2 contracts the 128 columns of its left operand with the 128 rows of its right operand and
    has no batch axes. -/
theorem plainDims2 : PlainDot.IsPlain dot_S5000x128_S128x64_S5000x64_1_0_0_1_n_n := ⟨rfl, rfl, rfl, rfl, rfl, rfl⟩

/-- Entry (p, q) of what one grid point stores: row p of the loaded block of h times column q of the loaded weight
    matrix.  Reshaping a block to its own shape and rounding the operands to the narrower format change nothing on
    the extended reals, and the accumulator the product is added into is zero. -/
theorem rows2_payload (x0 : Vec Ideal S5000x128 .f32) (x1 : Vec Ideal S128x64 .f32) (p : Fin 5000) (q : Fin 64) :
    k2_pay1 (F := Ideal) x0 x1 (ix2 p q) = ∑ κ : Fin 128, x0 (ix2 p κ) * x1 (ix2 κ q) := by
  unfold k2_pay1
  rw [shapeCast_self]
  exact PlainDot.matmul_zero_plain dot_S5000x128_S128x64_S5000x64_1_0_0_1_n_n plainDims2 none _ _ p q

/-- The block indices over the ten grid points: the block of h and the block of the result are both block t of
    their arrays' rows and all of their columns; the weight matrix is one block. -/
theorem blockIndex2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The block of h at grid point t is rows 5000 t … 5000 t + 4999 of h, all 128 columns. -/
theorem rowsOfH2 (c : Dev nD) (t : Fin cfg2.N) (p : Fin 5000) (κ : Fin 128) (r : Fin 50000)
    (hr : r.val = t.val * 5000 + p.val) :
    (iblk2 V c 0 t : Vec Ideal S5000x128 .f32) (ix2 p κ) = (V c main_v45 : S50000x128.Idx → Elt Ideal .f32) (ix2 r κ) := by
  obtain ⟨e0, e1, e2, e3, e4, e5⟩ := blockIndex2 t
  unfold iblk2
  rw [View.read_apply]
  show V c main_v45 _ = V c main_v45 _
  congr 1
  funext a
  apply Fin.ext
  match a with
  | ⟨0, _⟩ => show win2_0.index t (0 : Fin 2) * 5000 + 1 * p.val = r.val; omega
  | ⟨1, _⟩ => show win2_0.index t (1 : Fin 2) * 128 + 1 * κ.val = κ.val; omega

/-- The block of the 128×64 weight matrix at every grid point is the whole matrix. -/
theorem wholeWeights2 (c : Dev nD) (t : Fin cfg2.N) (κ : Fin 128) (q : Fin 64) :
    (iblk2 V c 1 t : Vec Ideal S128x64 .f32) (ix2 κ q) = (V c main_arg4 : S128x64.Idx → Elt Ideal .f32) (ix2 κ q) := by
  obtain ⟨e0, e1, e2, e3, e4, e5⟩ := blockIndex2 t
  unfold iblk2
  rw [View.read_apply]
  show V c main_arg4 _ = V c main_arg4 _
  congr 1
  funext a
  apply Fin.ext
  match a with
  | ⟨0, _⟩ => show win2_1.index t (0 : Fin 2) * 128 + 1 * κ.val = κ.val; omega
  | ⟨1, _⟩ => show win2_1.index t (1 : Fin 2) * 64 + 1 * q.val = q.val; omega

/-- Entry (p, q) of the result's block at grid point t is entry (5000 t + p, q) of the result. -/
theorem resultBlock2 (t : Fin cfg2.N) (p : Fin 5000) (q : Fin 64) (r : Fin 50000) (hr : r.val = t.val * 5000 + p.val) :
    ((cfg2.win 2).blk t).view.emb (ix2 p q) = (ix2 r q : S50000x64.Idx) := by
  obtain ⟨e0, e1, e2, e3, e4, e5⟩ := blockIndex2 t
  funext a
  apply Fin.ext
  match a with
  | ⟨0, _⟩ => show win2_2.index t (0 : Fin 2) * 5000 + 1 * p.val = r.val; omega
  | ⟨1, _⟩ => show win2_2.index t (1 : Fin 2) * 64 + 1 * q.val = q.val; omega

/-- What grid point t writes back is block t of the product of the whole arrays: entry (p, q) of the stored block is
    row p of the block of h times column q of the weight matrix, which is row 5000 t + p of h times that column, and
    it lands on entry (5000 t + p, q) of the result. -/
theorem writtenBack2 (c : Dev nD) (t : Fin cfg2.N) :
    (dat2 (F := Ideal) V c).flushed 2 t
      = ((cfg2.win 2).blk t).view.read (Elt Ideal) (Cert.Gcn.linear (V c main_v45) (V c main_arg4)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x64) hz2]
  funext j
  obtain ⟨p, q, rfl⟩ : ∃ (p : Fin 5000) (q : Fin 64), j = ix2 p q := ⟨j 0, j 1, eq_ix2 j⟩
  refine (rows2_payload (iblk2 V c 0 t) (iblk2 V c 1 t) p q).trans ?_
  have ht : t.val < 10 := t.isLt
  have hr : (⟨t.val * 5000 + p.val, by have := p.isLt; omega⟩ : Fin 50000).val = t.val * 5000 + p.val := rfl
  rw [View.read_apply, resultBlock2 t p q _ hr]
  refine Eq.trans ?_ (Cert.Gcn.linear_apply (V c main_v45) (V c main_arg4) _ q).symm
  refine Finset.sum_congr rfl fun κ _ => ?_
  rw [rowsOfH2 V c t p κ _ hr, wholeWeights2 V c t κ q]

/-- An entry of the result lies in the block of grid point t exactly when, on each axis, its coordinate is within
    the block's extent from the block's first coordinate. -/
theorem inBlock2 (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- Every entry of the result is written back by some grid point: row r belongs to the block of point r / 5000, and
    50000 = 10 · 5000 rows make ten full blocks. -/
theorem covers2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hq : (i 0).val / 5000 < 10 := by omega
  obtain ⟨e0, e1, e2, e3, e4, e5⟩ := blockIndex2 ⟨(i 0).val / 5000, hq⟩
  have e4' : win2_2.index (⟨(i 0).val / 5000, hq⟩ : Fin cfg2.N) (0 : Fin 2) = (i 0).val / 5000 := e4
  refine ⟨⟨(i 0).val / 5000, hq⟩, flush2_2 _, ?_⟩
  rw [inBlock2]
  intro a
  match a with
  | ⟨0, _⟩ =>
    show win2_2.index (⟨(i 0).val / 5000, hq⟩ : Fin cfg2.N) (0 : Fin 2) * 5000 ≤ (i 0).val
      ∧ (i 0).val < win2_2.index (⟨(i 0).val / 5000, hq⟩ : Fin cfg2.N) (0 : Fin 2) * 5000 + 5000
    omega
  | ⟨1, _⟩ =>
    show win2_2.index (⟨(i 0).val / 5000, hq⟩ : Fin cfg2.N) (1 : Fin 2) * 64 ≤ (i 1).val
      ∧ (i 1).val < win2_2.index (⟨(i 0).val / 5000, hq⟩ : Fin cfg2.N) (1 : Fin 2) * 64 + 64
    omega

/-- When call 2 returns, its output array is h times the weight matrix: every grid point writes back its block of the
    product, and the ten blocks fill the array. -/
theorem final2 (c : Dev nD) : (dat2 (F := Ideal) V c).arrAt 2 cfg2.N = Cert.Gcn.linear (V c main_v45) (V c main_arg4) :=
  (dat2 V c).arrAt_eq_of_cover 2 (Cert.Gcn.linear (V c main_v45) (V c main_arg4)) (fun t _ => writtenBack2 V c t) covers2

end Cert.KernelIdeal.RegionValue

end
-- ==== Proof.Region3.lean ====
/-
  Call 3 of the kernel program adds the one-row bias to every row of its input, a block of 5000 rows at each
  of its ten grid points.  When the call returns, the output array holds that function of the whole input:
  entry (r, q) is input (r, q) + bias (0, q).
-/
import proofs.«139789_j23192823399146_1_alg».proof.Proof.Gen.KernelIdeal.Frame
import proofs.«139789_j23192823399146_1_alg».proof.Proof.Spec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The two offsets of a whole-block access are both zero. -/
theorem hz3 : (![0, 0] : Fin 2 → Nat) = fun _ => 0 := funext fun a => by fin_cases a <;> rfl

/-- One entry of what the body stores: the block entry plus the bias entry of its column. -/
theorem bias3_payload (x0 : Vec Ideal S5000x64 .f32) (x1 : Vec Ideal S1x64 .f32) (p : Fin 5000) (q : Fin 64) :
    k3_pay1 (F := Ideal) x0 x1 (ix2 p q) = x0 (ix2 p q) + x1 (ix2 (0 : Fin 1) q) := by
  unfold k3_pay1
  simp only [shapeCast_self]
  rw [addf_apply]
  rw [broadcastTo_apply x1 broadcasts_S1x64_S5000x64 (ix2 p q) (ix2 (0 : Fin 1) q) (fun a => by
    match a with
    | ⟨0, _⟩ => rfl
    | ⟨1, _⟩ => rfl)]

/-- The row-wise bias sum of a whole array at an index, from its two operands read at equal indices. -/
theorem addRow3_at (A : S50000x64.Idx → Elt Ideal .f32) (B : S1x64.Idx → Elt Ideal .f32) (i0 i2 : S50000x64.Idx)
    (i1 : S1x64.Idx) (h0 : i0 = i2) (h1 : i1 = ix2 (0 : Fin 1) (i2 1)) :
    A i0 + B i1 = Cert.Gcn.addRow A B i2 := by
  subst h0 h1; rfl

/-- Where the three windows sit at grid point t: the row-block windows at block row t, block column 0; the bias
    window always at its only block. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is rows 5000 t … 5000 t + 4999 of the row-wise bias sum of the whole input. -/
theorem writtenBack3 (c : Dev nD) (t : Fin cfg3.N) :
    (dat3 (F := Ideal) V c).flushed 2 t
      = ((cfg3.win 2).blk t).view.read (Elt Ideal) (Cert.Gcn.addRow (V c main_v58) (V c main_v59)) := by
  show (cfg3.win 2).cut (grid3.coords t) ((dat3 (F := Ideal) V c).after 2 t) = _
  rw [after3_2]
  unfold out3_2
  rw [View.canon_unit_zero hz3]
  simp only [View.ld_unit_zero (S := S5000x64) hz3, View.ld_unit_zero (S := S1x64) hz3]
  obtain ⟨e0, e1, e2, e3, e4, e5⟩ := blockIndex3 t
  funext j
  obtain ⟨p, q, rfl⟩ : ∃ (p : Fin 5000) (q : Fin 64), j = ix2 p q := ⟨j 0, j 1, eq_ix2 j⟩
  refine (bias3_payload (iblk3 V c 0 t) (iblk3 V c 1 t) p q).trans ?_
  have hrow : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have hbias : ((cfg3.win 1).blk t).view.emb (ix2 (0 : Fin 1) q)
      = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  exact addRow3_at (V c main_v58) (V c main_v59) (((cfg3.win 0).blk t).view.emb (ix2 p q))
    (((cfg3.win 2).blk t).view.emb (ix2 p q)) (((cfg3.win 1).blk t).view.emb (ix2 (0 : Fin 1) q)) hrow hbias

/-- An index of the output array lies in grid point t's block exactly when each coordinate lies in the block's range. -/
theorem inBlock3 (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v60).slice (win3_2.rect t)).set ↔ _
  rw [View.set_slice_whole, Rect.mem_set_unit]
  exact Iff.rfl

/-- Row r of the output lies in the block of grid point r / 5000, and every grid point writes its block back. -/
theorem covers3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have ht : (i 0).val / 5000 < cfg3.N := by show (i 0).val / 5000 < 10; omega
  obtain ⟨-, -, -, -, e4, e5⟩ := blockIndex3 ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [inBlock3]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 64 ≤ (i 1).val
      ∧ (i 1).val < win3_2.index ⟨(i 0).val / 5000, ht⟩ (1 : Fin 2) * 64 + 64
    omega

/-- When call 3 returns, its output array is the row-wise bias sum of the whole input. -/
theorem final3 (c : Dev nD) : (dat3 (F := Ideal) V c).arrAt 2 cfg3.N = Cert.Gcn.addRow (V c main_v58) (V c main_v59) :=
  (dat3 (F := Ideal) V c).arrAt_eq_of_cover 2 (Cert.Gcn.addRow (V c main_v58) (V c main_v59))
    (fun t _ => writtenBack3 V c t) covers3

end Cert.KernelIdeal.RegionValue

end
-- ==== Proof.KernelValue.lean ====
/-
  The idealized kernel program's result, at the extended reals.

  Call by call and stretch by stretch the kernel program's buffers hold the reference's stages: the first call
  leaves x·W1, the stretch after it the first aggregate, the second call the aggregate plus the bias clamped at
  zero, the third call that times W2, the stretch after it the second aggregate, and the last call adds the
  second bias.  So the result array ends at the reference's result, as a function of the argument arrays.
-/
import proofs.«139789_j23192823399146_1_alg».proof.Proof.KernelHost
import proofs.«139789_j23192823399146_1_alg».proof.Proof.Region0
import proofs.«139789_j23192823399146_1_alg».proof.Proof.Region1
import proofs.«139789_j23192823399146_1_alg».proof.Proof.Region2
import proofs.«139789_j23192823399146_1_alg».proof.Proof.Region3

set_option maxRecDepth 16384

noncomputable section

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg)

/-- A vector laid out as a one-row matrix has the vector's entries. -/
theorem row_apply {n : Nat} (x : (⟨1, ![n]⟩ : Shape).Idx → EReal) (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]; show q.val = 0 * n + q.val; omega)

/-- The first call leaves every row of x times W1. -/
theorem W4_xw (c : Dev nD) :
    W4 m ρ c (Proc.devRef .tc main_v31) = Cert.ReferenceIdeal.ReadP.val_main_v4 (F := Ideal) (a0 m c) (a2 m c) := by
  refine (W4_arr m ρ c 2).trans ((RegionValue.final0 (V3 m ρ) c).trans ?_)
  have e0 : V3 m ρ c main_arg0 = a0 m c := W3_arg0 m ρ c
  have e2 : V3 m ρ c main_arg2 = a2 m c := W3_arg2 m ρ c
  rw [e0, e2, Cert.ReferenceIdeal.Stages.xw1_eq]

/-- The stretch after it leaves the first aggregate. -/
theorem W5_agg1 (c : Dev nD) :
    W5 m ρ c (Proc.devRef .tc main_v43) = Cert.ReferenceIdeal.ReadP.val_main_v43 (F := Ideal) (a0 m c) (a1 m c) (a2 m c) := by
  rw [W5_agg, W4_xw, Cert.ReferenceIdeal.Stages.agg1_eq]

/-- The second call leaves the first layer's output: the aggregate plus the bias, clamped at zero from below. -/
theorem W6_h (c : Dev nD) :
    W6 m ρ c (Proc.devRef .tc main_v45) = Cert.ReferenceIdeal.ReadP.val_main_v47 (F := Ideal) (a0 m c) (a1 m c) (a2 m c) (a3 m c) := by
  refine (W6_arr m ρ c 2).trans ((RegionValue.final1 (V5 m ρ) c).trans ?_)
  have e1 : V5 m ρ c main_v43 = Cert.ReferenceIdeal.ReadP.val_main_v43 (F := Ideal) (a0 m c) (a1 m c) (a2 m c) := W5_agg1 m ρ c
  have e2 : V5 m ρ c main_v44 = shapeCast S1x128 (a3 m c) shapeCasts_S128_S1x128 := W5_bias m ρ c
  rw [e1, e2]
  exact (Cert.ReferenceIdeal.Stages.h_eq (a0 m c) (a1 m c) (a2 m c) (a3 m c) _ (fun q => row_apply (a3 m c) shapeCasts_S128_S1x128 q)).symm

/-- The third call leaves every row of that times W2. -/
theorem W7_xw2 (c : Dev nD) :
    W7 m ρ c (Proc.devRef .tc main_v46) = Cert.ReferenceIdeal.ReadP.val_main_v48 (F := Ideal) (a0 m c) (a1 m c) (a2 m c) (a3 m c) (a4 m c) := by
  refine (W7_arr m ρ c 2).trans ((RegionValue.final2 (V6 m ρ) c).trans ?_)
  have e1 : V6 m ρ c main_v45 = Cert.ReferenceIdeal.ReadP.val_main_v47 (F := Ideal) (a0 m c) (a1 m c) (a2 m c) (a3 m c) := W6_h m ρ c
  have e2 : V6 m ρ c main_arg4 = a4 m c := (kept6 m ρ c).arg4
  rw [e1, e2, Cert.ReferenceIdeal.Stages.xw2_eq]

/-- The stretch after it leaves the second aggregate. -/
theorem W8_agg2 (c : Dev nD) :
    W8 m ρ c (Proc.devRef .tc main_v58) = Cert.ReferenceIdeal.ReadP.val_main_v87 (F := Ideal) (a0 m c) (a1 m c) (a2 m c) (a3 m c) (a4 m c) := by
  rw [W8_agg, W7_xw2, Cert.ReferenceIdeal.Stages.agg2_eq]

/-- The last call adds the second bias: the result array ends at the reference's result. -/
theorem W9_out (c : Dev nD) :
    W9 m ρ c (Proc.devRef .tc main_v60)
      = Cert.ReferenceIdeal.ReadP.val_main_v90 (F := Ideal) (a0 m c) (a1 m c) (a2 m c) (a3 m c) (a4 m c) (a5 m c) := by
  refine (W9_arr m ρ c 2).trans ((RegionValue.final3 (V8 m ρ) c).trans ?_)
  have e1 : V8 m ρ c main_v58 = Cert.ReferenceIdeal.ReadP.val_main_v87 (F := Ideal) (a0 m c) (a1 m c) (a2 m c) (a3 m c) (a4 m c) := W8_agg2 m ρ c
  have e2 : V8 m ρ c main_v59 = shapeCast S1x64 (a5 m c) shapeCasts_S64_S1x64 := W8_bias m ρ c
  rw [e1, e2]
  exact (Cert.ReferenceIdeal.Stages.out_eq (a0 m c) (a1 m c) (a2 m c) (a3 m c) (a4 m c) (a5 m c) _ (fun q => row_apply (a5 m c) shapeCasts_S64_S1x64 q)).symm

end Cert.KernelIdeal.Chain

end
-- ==== Proof.lean ====
/-
  A two-layer graph convolution: out = Â·relu(Â·(x·W1) + b1)·W2 + b2 in the order the programs compute it, where
  Â scales the row gathered at an edge's source by the product of the inverse square roots of the degrees at the
  edge's two ends and adds it into the row of the edge's target (self loops included).

  The kernel program computes the two matrix products and the two bias additions in four calls, each over row
  blocks of 5000 rows, and does the degree count, the gathers and the scatter-adds with the same host operations
  as the reference.  On the extended reals rounding the matrix products' operands to a narrower format is the
  identity, a product accumulated into zero is the plain sum of products, and a block-by-block computation of
  rows is the whole-array one; so call by call the kernel program's buffers hold the reference's stages, and
  the two results are one function of the arguments.  No algebraic law beyond that is used, and the
  precondition is not opened.  The idealization rewrote nothing, so the preservation claim is trivial.
-/
import proofs.«139789_j23192823399146_1_alg».proof.Defs
import proofs.«139789_j23192823399146_1_alg».proof.Proof.Gen.Kernel
import proofs.«139789_j23192823399146_1_alg».proof.Proof.Gen.Kernel.Frame
import proofs.«139789_j23192823399146_1_alg».proof.Proof.Gen.KernelIdeal
import proofs.«139789_j23192823399146_1_alg».proof.Proof.Gen.KernelIdeal.Frame
import proofs.«139789_j23192823399146_1_alg».proof.Proof.Gen.ReferenceIdeal
import proofs.«139789_j23192823399146_1_alg».proof.Proof.Gen.Pre_finite_inputs
import proofs.«139789_j23192823399146_1_alg».proof.Proof.RunOut
import proofs.«139789_j23192823399146_1_alg».proof.Proof.RefRun
import proofs.«139789_j23192823399146_1_alg».proof.Proof.RefRead
import proofs.«139789_j23192823399146_1_alg».proof.Proof.KernelValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference runs, and leaves its arguments as they were: its run with the result dropped
    exact fun m ρ _ => (θ_run Cert.ReferenceIdeal.defs _ _).mono (fun _ h c => (h c).2)
      (Cert.ReferenceIdeal.ValueP.run (F := Ideal) m ρ)
  · -- both programs end at the reference's last stage, read at the kernel program's arguments
    intro m ρ m' ρ' _ hagree
    refine ⟨fun c => Cert.ReferenceIdeal.ReadP.val_main_v90 (F := Ideal) (Cert.KernelIdeal.Chain.a0 m c)
      (Cert.KernelIdeal.Chain.a1 m c) (Cert.KernelIdeal.Chain.a2 m c) (Cert.KernelIdeal.Chain.a3 m c)
      (Cert.KernelIdeal.Chain.a4 m c) (Cert.KernelIdeal.Chain.a5 m c), ?_, ?_⟩
    · exact (θ_run (Cert.KernelIdeal.defs (F := Ideal)) _ _).mono
        (fun r h c => ⟨(h c).1.trans (Cert.KernelIdeal.Chain.W9_out m ρ c), (h c).2⟩)
        (Cert.KernelIdeal.GenP.run_out (F := Ideal) m ρ)
    · refine (θ_run (Cert.ReferenceIdeal.defs (F := Ideal)) _ _).mono (fun r h c => ⟨?_, (h c).2⟩)
        (Cert.ReferenceIdeal.ValueP.run (F := Ideal) m' ρ')
      obtain ⟨h0, h1, h2, h3, h4, h5⟩ := hagree c
      rw [(h c).1, Cert.ReferenceIdeal.ReadP.val_main_v90_eq, h0, h1, h2, h3, h4, h5]⟩

end Cert.Proof

end
